-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : FVec F S11008x4096 .f32) (main_arg2 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S11008x4096 : Shape := ⟨2, ![11008, 4096]⟩
abbrev S11008 : Shape := ⟨1, ![11008]⟩
abbrev S1x11008 : Shape := ⟨2, ![1, 11008]⟩
abbrev S8192x11008 : Shape := ⟨2, ![8192, 11008]⟩
abbrev S256x512 : Shape := ⟨2, ![256, 512]⟩
abbrev S5504x512 : Shape := ⟨2, ![5504, 512]⟩
abbrev S1x5504 : Shape := ⟨2, ![1, 5504]⟩
abbrev S256x5504 : Shape := ⟨2, ![256, 5504]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S8192x4096, .bf16⟩
  | .hbm, ⟨4, _⟩ => ⟨S11008x4096, .f32⟩
  | .hbm, ⟨5, _⟩ => ⟨S11008x4096, .bf16⟩
  | .hbm, ⟨6, _⟩ => ⟨S1x11008, .f32⟩
  | .hbm, ⟨7, _⟩ => ⟨S8192x11008, .f32⟩
  | .local _ .vmem, ⟨0, _⟩ => ⟨S256x512, .bf16⟩
  | .local _ .vmem, ⟨1, _⟩ => ⟨S256x512, .bf16⟩
  | .local _ .vmem, ⟨2, _⟩ => ⟨S5504x512, .bf16⟩
  | .local _ .vmem, ⟨3, _⟩ => ⟨S5504x512, .bf16⟩
  | .local _ .vmem, ⟨4, _⟩ => ⟨S1x5504, .f32⟩
  | .local _ .vmem, ⟨5, _⟩ => ⟨S1x5504, .f32⟩
  | .local _ .vmem, ⟨6, _⟩ => ⟨S256x5504, .f32⟩
  | .local _ .vmem, ⟨7, _⟩ => ⟨S256x5504, .f32⟩
  | .local _ .vmem, ⟨8, _⟩ => ⟨S256x5504, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S11008_S1x11008 : S11008.ShapeCasts S1x11008
  inb_S256x5504_S256x5504_0_0 : ∀ a, (![0, 0] : Fin 2 → Nat) a + S256x5504.size a ≤ S256x5504.size a
  h_S256x5504 : 0 < S256x5504.numel
  shapeCasts_S256x5504_S256x5504 : S256x5504.ShapeCasts S256x5504
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S5504x512_S5504x512_0_0 : ∀ a, (![0, 0] : Fin 2 → Nat) a + S5504x512.size a ≤ S5504x512.size a
  h_S5504x512 : 0 < S5504x512.numel
  shapeCasts_S5504x512_S5504x512 : S5504x512.ShapeCasts S5504x512
  inb_S1x5504_S1x5504_0_0 : ∀ a, (![0, 0] : Fin 2 → Nat) a + S1x5504.size a ≤ S1x5504.size a
  h_S1x5504 : 0 < S1x5504.numel
  shapeCasts_S1x5504_S1x5504 : S1x5504.ShapeCasts S1x5504
  broadcasts_S1x5504_S256x5504 : S1x5504.Broadcasts S256x5504
  dot_S256x512_S5504x512_S256x5504_1_1_0_0_n_n_wf : DotDims.WF S256x512 S5504x512 S256x5504 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x4096.size a
  hwx0_0 : ∀ i : grid0.Coords, EltTy.bits .bf16 = 32 ∨ (Rect.block (s := S8192x4096) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5504x512.size a ≤ S11008x4096.size a
  hwx0_1 : ∀ i : grid0.Coords, EltTy.bits .bf16 = 32 ∨ (Rect.block (s := S11008x4096) S5504x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5504.size a ≤ S1x11008.size a
  hwx0_2 : ∀ i : grid0.Coords, EltTy.bits .f32 = 32 ∨ (Rect.block (s := S1x11008) S1x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x5504.size a ≤ S8192x11008.size a
  hwx0_3 : ∀ i : grid0.Coords, EltTy.bits .f32 = 32 ∨ (Rect.block (s := S8192x11008) S256x5504.size (cc0_transform_3 i) (hinb0_3 i)).WholeWords (EltTy.packing .f32)

variable [Facts₀]

def dot_S256x512_S5504x512_S256x5504_1_1_0_0_n_n : DotDims S256x512 S5504x512 S256x5504 where
  lhsContracting := [1]
  rhsContracting := [1]
  lhsNonContracting := [0]
  rhsNonContracting := [0]
  lhsBatch := []
  rhsBatch := []
  wf := dot_S256x512_S5504x512_S256x5504_1_1_0_0_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5504x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x5504.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x4096 : Shape := ⟨2, ![11008, 4096]⟩
abbrev S11008 : Shape := ⟨1, ![11008]⟩
abbrev S4096x11008 : Shape := ⟨2, ![4096, 11008]⟩
abbrev S8192x11008 : Shape := ⟨2, ![8192, 11008]⟩
abbrev S1x11008 : Shape := ⟨2, ![1, 11008]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S4096x11008, .f32⟩
  | .hbm, ⟨5, _⟩ => ⟨S8192x11008, .f32⟩
  | .hbm, ⟨6, _⟩ => ⟨S1x11008, .f32⟩
  | .hbm, ⟨7, _⟩ => ⟨S8192x11008, .f32⟩
  | .hbm, ⟨8, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S11008x4096_S4096x11008_1_0 : S11008x4096.Transposes [1, 0] S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Dense.lean ====
/-
  The function both programs compute: a dense layer with ternarized weights.

  For activations x [8192, 4096], weights w [11008, 4096] and a bias b [11008], entry (r, c) of the result is
      Σ_{κ < 4096} x (r, κ) · sign (w (c, κ))  +  b (c)
  on the extended reals: the weight matrix is used transposed (its rows are the output features), its entries replaced
  by their signs. The reference spells this as sign, transpose, one matrix product over all 4096 features, and the
  addition of the bias broadcast over the rows; read one operation at a time at an entry, that is the formula above.
-/
import proofs.«141357_j87247965651268_1_alg».proof.Proof.Gen.ReferenceIdeal.Read
import Idealize.ShloMosaic.Lib.ValueIdx
import Idealize.ShloMosaic.PureOps.Ideal.Laws

noncomputable section

open scoped BigOperators

namespace Cert.Dense

open Idealize.ShloMosaic Idealize.ShloMosaic.ValueIdx

/-- x · sign(w)ᵀ + b, entry by entry, on the extended reals. -/
def dense (x : FVec Ideal ⟨2, ![8192, 4096]⟩ .f32) (w : FVec Ideal ⟨2, ![11008, 4096]⟩ .f32)
    (b : FVec Ideal ⟨1, ![11008]⟩ .f32) : FVec Ideal ⟨2, ![8192, 11008]⟩ .f32 :=
  fun i => (∑ κ : Fin 4096, x (ix2 (i 0) κ) * Ideal.hostUnary .sign (w (ix2 (i 1) κ))) + b (ix1 (i 1))

open Cert.ReferenceIdeal Cert.ReferenceIdeal.Read in
/-- The reference's result is `dense` of its arguments. -/
theorem reference_eq (x : FVec Ideal S8192x4096 .f32) (w : FVec Ideal S11008x4096 .f32) (b : FVec Ideal S11008 .f32) :
    val_main_v5 (F := Ideal) x w b = dense x w b := by
  funext i
  have el : ∀ k : Fin 4096, lidx_main_v2 i k = ix2 (i 0) k := fun k =>
    funext fun a => Fin.ext (by match a with | ⟨0, _⟩ => rfl | ⟨1, _⟩ => rfl)
  have er : ∀ k : Fin 4096, idx_main_v1 (ridx_main_v2 i k) = ix2 (i 1) k := fun k =>
    funext fun a => Fin.ext (by match a with | ⟨0, _⟩ => rfl | ⟨1, _⟩ => rfl)
  have eb : idx_main_v3 (idx_main_v4 i) = ix1 (i 1) :=
    funext fun a => Fin.ext (by match a with | ⟨0, _⟩ => rfl)
  rw [val_main_v5_apply, val_main_v2_apply, val_main_v4_apply, val_main_v3_apply]
  simp only [val_main_v1_apply, val_main_v0_apply, el, er, eb]
  rfl

end Cert.Dense

end
-- ==== Proof.Pieces.lean ====
/-
  What one run of the kernel body leaves behind, case by case, as terms of its loaded blocks.

  The body keeps a 256×5504 accumulator in scratch memory across the eight steps of the grid's last axis.
  At the first step it stores zeros into the accumulator, reads them back and adds that step's block product; at every
  later step it adds the step's block product to what the step before left; at the last step it also reads the updated
  accumulator back, adds the bias row to every row of it and stores the result into the output block. Each lemma below
  reads the stores a case makes back as the value they leave: a store over the whole buffer leaves exactly its
  value, and a load that follows a store of the same buffer in the same run sees the stored value.
-/
import proofs.«141357_j87247965651268_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- FIRST STEP of a reduction: the accumulator ends at the zero block plus the step's block product. -/
theorem scratch_first (c : Dev nD) (i : grid0.Coords) (a3 : Memref sig .tc .vmem S256x512 .bf16) (h3 : a3.IsWhole)
    (a4 : Memref sig .tc .vmem S5504x512 .bf16) (h4 : a4.IsWhole) (a5 : Memref sig .tc .vmem S1x5504 .f32) (h5 : a5.IsWhole)
    (a6 : Memref sig .tc .vmem S256x5504 .f32) (h6 : a6.IsWhole) (a7 : Memref sig .tc .vmem S256x5504 .f32) (h7 : a7.IsWhole)
    (hc0 : cond0_0 i) (hc1 : ¬cond0_1 i)
    (x0 : Vec F S256x512 .bf16) (x1 : Vec F S5504x512 .bf16) (x2 : Vec F S1x5504 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S256x5504) origin, View.readCov_unit_zero (S := S256x5504) _ origin]
  simp only [View.readAt_eq_ld, h3.read_unread, h4.read_unread, View.ld_unit_zero (S := S256x512) origin,
    View.ld_unit_zero (S := S5504x512) origin]

/-- A MIDDLE STEP: the accumulator ends at what the step before left plus the step's block product. -/
theorem scratch_middle (c : Dev nD) (i : grid0.Coords) (a3 : Memref sig .tc .vmem S256x512 .bf16) (h3 : a3.IsWhole)
    (a4 : Memref sig .tc .vmem S5504x512 .bf16) (h4 : a4.IsWhole) (a5 : Memref sig .tc .vmem S1x5504 .f32) (h5 : a5.IsWhole)
    (a6 : Memref sig .tc .vmem S256x5504 .f32) (h6 : a6.IsWhole) (a7 : Memref sig .tc .vmem S256x5504 .f32) (h7 : a7.IsWhole)
    (hc0 : ¬cond0_0 i) (hc1 : ¬cond0_1 i)
    (x0 : Vec F S256x512 .bf16) (x1 : Vec F S5504x512 .bf16) (x2 : Vec F S1x5504 .f32) (acc : Vec F S256x5504 .f32) :
    sout0_B_0 c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero origin]
  simp only [View.readAt_eq_ld, h3.read_unread, h4.read_unread, h7.read_unread, View.ld_unit_zero (S := S256x512) origin,
    View.ld_unit_zero (S := S5504x512) origin, View.ld_unit_zero (S := S256x5504) origin]

/-- THE LAST STEP updates the accumulator as a middle step does, -/
theorem scratch_last (c : Dev nD) (i : grid0.Coords) (a3 : Memref sig .tc .vmem S256x512 .bf16) (h3 : a3.IsWhole)
    (a4 : Memref sig .tc .vmem S5504x512 .bf16) (h4 : a4.IsWhole) (a5 : Memref sig .tc .vmem S1x5504 .f32) (h5 : a5.IsWhole)
    (a6 : Memref sig .tc .vmem S256x5504 .f32) (h6 : a6.IsWhole) (a7 : Memref sig .tc .vmem S256x5504 .f32) (h7 : a7.IsWhole)
    (hc0 : ¬cond0_0 i) (hc1 : cond0_1 i)
    (x0 : Vec F S256x512 .bf16) (x1 : Vec F S5504x512 .bf16) (x2 : Vec F S1x5504 .f32) (acc : Vec F S256x5504 .f32) :
    sout0_C_0 c i a3 h3 a4 h4 a5 h5 a6 h6 a7 h7 hc0 hc1 x0 x1 x2 acc = k0_pay2 acc x0 x1 := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h7.read_unread, View.ld_unit_zero (S := S256x512) origin,
    View.ld_unit_zero (S := S5504x512) origin, View.ld_unit_zero (S := S256x5504) origin]

/-- and stores into the output block the updated accumulator plus the bias row. -/
theorem out_last (c : Dev nD) (i : grid0.Coords) (a3 : Memref sig .tc .vmem S256x512 .bf16) (h3 : a3.IsWhole)
    (a4 : Memref sig .tc .vmem S5504x512 .bf16) (h4 : a4.IsWhole) (a5 : Memref sig .tc .vmem S1x5504 .f32) (h5 : a5.IsWhole)
    (a6 : Memref sig .tc .vmem S256x5504 .f32) (h6 : a6.IsWhole) (a7 : Memref sig .tc .vmem S256x5504 .f32) (h7 : a7.IsWhole)
    (hc0 : ¬cond0_0 i) (hc1 : cond0_1 i)
    (x0 : Vec F S256x512 .bf16) (x1 : Vec F S5504x512 .bf16) (x2 : Vec F S1x5504 .f32) (acc : Vec F S256x5504 .f32) :
    out0_C_3 c i a3 h3 a4 h4 a5 h5 a6 h6 a7 h7 hc0 hc1 x0 x1 x2 acc = k0_pay3 (k0_pay2 acc x0 x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h5.read_unread, h7.read_unread,
    View.readCov_unit_zero (S := S256x5504) _ origin, View.ld_unit_zero (S := S256x512) origin,
    View.ld_unit_zero (S := S5504x512) origin, View.ld_unit_zero (S := S1x5504) origin, View.ld_unit_zero (S := S256x5504) origin]

end Cert.KernelIdeal.Pieces

end
-- ==== Proof.BlockProduct.lean ====
/-
  One grid step's matrix product, read at an entry.

  At a grid step the kernel multiplies a 256×512 block of the activations by a 5504×512 block of the ternarized
  weights, contracting the SECOND axis of both (the weight block is laid out [out, in], so no transpose is formed), into
  a zero accumulator. On the extended reals entry (p, q) of that product is the sum over the 512 contracted positions κ
  of left (p, κ) · right (q, κ): the left operand's row is the output's row, the right operand's row is the output's
  column, and both operands' columns are the contracted position.
-/
import proofs.«141357_j87247965651268_1_alg».proof.Proof.Gen.KernelIdeal
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's row coordinate is the output's row coordinate. -/
theorem lhs_row (i : S256x5504.Idx) (q : dot_S256x512_S5504x512_S256x5504_1_1_0_0_n_n.contr.Idx) :
    (dot_S256x512_S5504x512_S256x5504_1_1_0_0_n_n.lhsIdx i q 0).val = (i 0).val := by
  unfold DotDims.lhsIdx
  rw [dif_neg (show ¬(0 : Fin S256x512.rank) ∈ dot_S256x512_S5504x512_S256x5504_1_1_0_0_n_n.lhsBatch by decide), dif_pos (show (0 : Fin S256x512.rank) ∈ dot_S256x512_S5504x512_S256x5504_1_1_0_0_n_n.lhsNonContracting by decide)]
  rfl

/-- The left operand's column coordinate is the contracted position. -/
theorem lhs_col (i : S256x5504.Idx) (q : dot_S256x512_S5504x512_S256x5504_1_1_0_0_n_n.contr.Idx) :
    (dot_S256x512_S5504x512_S256x5504_1_1_0_0_n_n.lhsIdx i q 1).val = (q ⟨0, by decide⟩).val :=
  dot_S256x512_S5504x512_S256x5504_1_1_0_0_n_n.lhsIdx_val_of_single rfl i q

/-- The right operand's row coordinate is the output's COLUMN coordinate: its rows are the output features. -/
theorem rhs_row (i : S256x5504.Idx) (q : dot_S256x512_S5504x512_S256x5504_1_1_0_0_n_n.contr.Idx) :
    (dot_S256x512_S5504x512_S256x5504_1_1_0_0_n_n.rhsIdx i q 0).val = (i 1).val := by
  unfold DotDims.rhsIdx
  rw [dif_neg (show ¬(0 : Fin S5504x512.rank) ∈ dot_S256x512_S5504x512_S256x5504_1_1_0_0_n_n.rhsBatch by decide), dif_pos (show (0 : Fin S5504x512.rank) ∈ dot_S256x512_S5504x512_S256x5504_1_1_0_0_n_n.rhsNonContracting by decide)]
  rfl

/-- The right operand's column coordinate is the contracted position. -/
theorem rhs_col (i : S256x5504.Idx) (q : dot_S256x512_S5504x512_S256x5504_1_1_0_0_n_n.contr.Idx) :
    (dot_S256x512_S5504x512_S256x5504_1_1_0_0_n_n.rhsIdx i q 1).val = (q ⟨0, by decide⟩).val :=
  dot_S256x512_S5504x512_S256x5504_1_1_0_0_n_n.rhsIdx_val_of_single rfl i q

/-- Entry (p, q) of one step's product into the zero accumulator: the sum over the 512 contracted positions of
    left (p, κ) · right (q, κ). -/
theorem matmul_zero_apply (l : FVec Ideal S256x512 .bf16) (r : FVec Ideal S5504x512 .bf16) (p : Fin 256) (q : Fin 5504) :
    matmul (F := Ideal) dot_S256x512_S5504x512_S256x5504_1_1_0_0_n_n none l r (constant S256x5504 .f32 0x00000000#32) (ix2 p q)
      = ∑ κ : Fin 512, l (ix2 p κ) * r (ix2 q κ) := by
  simp only [matmul]
  rw [Ideal.matmul_constant_zero_apply, ← Equiv.sum_comp (ValueIdx.contrEquiv1 dot_S256x512_S5504x512_S256x5504_1_1_0_0_n_n 512 rfl rfl).symm]
  refine Finset.sum_congr rfl fun κ _ => ?_
  have hk := ValueIdx.contrEquiv1_symm_val dot_S256x512_S5504x512_S256x5504_1_1_0_0_n_n 512 rfl rfl κ
  have el : dot_S256x512_S5504x512_S256x5504_1_1_0_0_n_n.lhsIdx (ix2 p q) ((ValueIdx.contrEquiv1 dot_S256x512_S5504x512_S256x5504_1_1_0_0_n_n 512 rfl rfl).symm κ) = ix2 p κ := funext fun a => Fin.ext (by
    match a with
    | ⟨0, _⟩ => exact lhs_row _ _
    | ⟨1, _⟩ => exact (lhs_col _ _).trans hk)
  have er : dot_S256x512_S5504x512_S256x5504_1_1_0_0_n_n.rhsIdx (ix2 p q) ((ValueIdx.contrEquiv1 dot_S256x512_S5504x512_S256x5504_1_1_0_0_n_n 512 rfl rfl).symm κ) = ix2 q κ := funext fun a => Fin.ext (by
    match a with
    | ⟨0, _⟩ => exact rhs_row _ _
    | ⟨1, _⟩ => exact (rhs_col _ _).trans hk)
  rw [el, er]

end Cert.KernelIdeal.BlockProduct

end
-- ==== Proof.PayloadAt.lean ====
/-
  The body's three stored values, read at an entry (p, q) on the extended reals.

  The reset value is 0 everywhere. The update value at (p, q) is the accumulator's entry plus the sum over the 512
  contracted positions κ of activations (p, κ) · weights (q, κ) of the step's two blocks. The output value at (p, q) is
  the updated accumulator's entry plus entry q of the bias row, the same for every row p.
-/
import proofs.«141357_j87247965651268_1_alg».proof.Proof.Gen.KernelIdeal.Skeleton
import proofs.«141357_j87247965651268_1_alg».proof.Proof.BlockProduct
import Idealize.ShloMosaic.Lib.Pipeline.Value
import Idealize.ShloMosaic.Lib.ValueIdx
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-- The reset stores the real number 0 at every entry. -/
theorem reset_apply (i : S256x5504.Idx) : k0_pay1 (F := Ideal) i = 0 := by
  unfold k0_pay1
  simp only [shapeCast_self]
  exact Ideal.ofBits_zero_f32

/-- The update at (p, q): the accumulator there plus the step's block product there. -/
theorem update_apply (acc : FVec Ideal S256x5504 .f32) (x0 : FVec Ideal S256x512 .bf16) (x1 : FVec Ideal S5504x512 .bf16)
    (p : Fin 256) (q : Fin 5504) :
    k0_pay2 (F := Ideal) acc x0 x1 (ix2 p q) = acc (ix2 p q) + ∑ κ : Fin 512, x0 (ix2 p κ) * x1 (ix2 q κ) := by
  unfold k0_pay2
  simp only [shapeCast_self]
  exact congrArg (acc (ix2 p q) + ·) (BlockProduct.matmul_zero_apply x0 x1 p q)

/-- The output at (p, q): the value there plus the bias row's entry q. -/
theorem bias_apply (a : FVec Ideal S256x5504 .f32) (x2 : FVec Ideal S1x5504 .f32) (p : Fin 256) (q : Fin 5504) :
    k0_pay3 (F := Ideal) a x2 (ix2 p q) = a (ix2 p q) + x2 (ix2 (0 : Fin 1) q) := by
  unfold k0_pay3
  simp only [shapeCast_self]
  exact congrArg (a (ix2 p q) + ·) (broadcastTo_apply x2 broadcasts_S1x5504_S256x5504 (ix2 p q) (ix2 (0 : Fin 1) q) (fun b => match b with
    | ⟨0, _⟩ => by show (0 : ℕ) = if (1 : ℕ) = 1 then 0 else p.val; rw [if_pos rfl]
    | ⟨1, _⟩ => by show q.val = if (5504 : ℕ) = 1 then 0 else q.val; rw [if_neg (by decide)]))

end Cert.KernelIdeal.PayloadAt

end
-- ==== Proof.Accumulator.lean ====
/-
  The accumulator after each grid step, and the output block at a last step, entry by entry.

  The 512 grid points are visited with the reduction axis fastest, so the eight steps of one reduction are the
  consecutive points 8·Q … 8·Q + 7. Write a_n (p, q) for step n's block product at (p, q): the sum over the 512
  contracted positions κ of (activation block of step n) (p, κ) · (weight block of step n) (q, κ).
  The first step of a reduction leaves 0 + a_{8Q} in the accumulator and every later step adds its own a_n, so after
  step t the accumulator holds 0 + Σ_{s ≤ t mod 8} a_{8·(t div 8) + s}: a fold unrolled at an entry, with no induction
  on the grid. At a last step (t mod 8 = 7) the output block is that accumulator plus the bias row on every row.
-/
import proofs.«141357_j87247965651268_1_alg».proof.Proof.Gen.KernelIdeal.Value
import proofs.«141357_j87247965651268_1_alg».proof.Proof.Pieces
import proofs.«141357_j87247965651268_1_alg».proof.Proof.PayloadAt

noncomputable section

open scoped BigOperators

namespace Cert.KernelIdeal.Accumulator

open Cert.KernelIdeal Cert.KernelIdeal.Gen Cert.KernelIdeal.Value Idealize.ShloMosaic Idealize.ShloMosaic.TcCoe
open Idealize.ShloMosaic.ValueIdx Idealize.SL.Sem

variable (m : (ℓ : Loc nD τ sig) → Buf (Elt Ideal) ℓ)

/-- The activation block a grid step reads. -/
abbrev xblk (c : Dev nD) (t : Fin cfg0.N) : FVec Ideal S256x512 .bf16 := iblk m c 0 t
/-- The weight block a grid step reads. -/
abbrev wblk (c : Dev nD) (t : Fin cfg0.N) : FVec Ideal S5504x512 .bf16 := iblk m c 1 t
/-- The bias block a grid step reads. -/
abbrev bblk (c : Dev nD) (t : Fin cfg0.N) : FVec Ideal S1x5504 .f32 := iblk m c 2 t

/-- Step `n`'s block product at an entry (0 past the grid, where it is never used). -/
def addend (c : Dev nD) (n : ℕ) (i : S256x5504.Idx) : EReal :=
  if h : n < cfg0.N then ∑ κ : Fin 512, xblk m c ⟨n, h⟩ (ix2 (i 0) κ) * wblk m c ⟨n, h⟩ (ix2 (i 1) κ) else 0

theorem addend_apply (c : Dev nD) (n : ℕ) (hb : n < cfg0.N) (p : Fin 256) (q : Fin 5504) :
    addend m c n (ix2 p q) = ∑ κ : Fin 512, xblk m c ⟨n, hb⟩ (ix2 p κ) * wblk m c ⟨n, hb⟩ (ix2 q κ) := by
  unfold addend
  rw [dif_pos hb]

/-- At the first step of a reduction the accumulator is reset: it ends at 0 plus the step's block product. -/
theorem step_first (c : Dev nD) (n : ℕ) (hb : n < cfg0.N) (h0 : n % 8 = 0) (acc : Vec Ideal S256x5504 .f32)
    (i : S256x5504.Idx) : scAt0_0 m c n hb acc i = 0 + addend m c n i := by
  have h1 : ¬n % 8 = 7 := by omega
  obtain ⟨p, q, rfl⟩ : ∃ (p : Fin 256) (q : Fin 5504), i = ix2 p q := ⟨i 0, i 1, eq_ix2 i⟩
  unfold scAt0_0
  rw [dif_pos h0, dif_neg h1]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 p q)).trans ?_
  refine (PayloadAt.update_apply (k0_pay1 (F := Ideal)) (xblk m c (⟨n, hb⟩ : Fin cfg0.N)) (wblk m c (⟨n, hb⟩ : Fin cfg0.N)) p q).trans ?_
  rw [PayloadAt.reset_apply, addend_apply m c n hb p q]

/-- At every other step it ends at what the step before left plus the step's block product. -/
theorem step_later (c : Dev nD) (n : ℕ) (hb : n < cfg0.N) (h0 : ¬n % 8 = 0) (acc : Vec Ideal S256x5504 .f32)
    (i : S256x5504.Idx) : scAt0_0 m c n hb acc i = acc i + addend m c n i := by
  obtain ⟨p, q, rfl⟩ : ∃ (p : Fin 256) (q : Fin 5504), i = ix2 p q := ⟨i 0, i 1, eq_ix2 i⟩
  unfold scAt0_0
  rw [dif_neg h0]
  by_cases h1 : n % 8 = 7
  · rw [dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 p q)).trans ?_
    refine (PayloadAt.update_apply acc (xblk m c (⟨n, hb⟩ : Fin cfg0.N)) (wblk m c (⟨n, hb⟩ : Fin cfg0.N)) p q).trans ?_
    rw [addend_apply m c n hb p q]
  · rw [dif_neg h1]
    refine (congrFun (Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 p q)).trans ?_
    refine (PayloadAt.update_apply acc (xblk m c (⟨n, hb⟩ : Fin cfg0.N)) (wblk m c (⟨n, hb⟩ : Fin cfg0.N)) p q).trans ?_
    rw [addend_apply m c n hb p q]

/-- THE ACCUMULATOR after step `t`, at an entry: 0 plus the block products of the reduction's steps so far. -/
theorem scratch_after (c : Dev nD) (t : Fin cfg0.N) (i : S256x5504.Idx) :
    (outsAt0 m c t.val t.isLt).2 i
      = 0 + ∑ s ∈ Finset.range (t.val % 8 + 1), addend m c (8 * (t.val / 8) + s) i := by
  rw [soutsAt0_0_eq]
  exact Pipeline.accAt_add_apply (β := EReal) (fun n h => scAt0_0 m c n h (VS0_0.read (Elt Ideal) VS0_0.junk)) (scAt0_0 m c)
    (fun _ => 0) (addend m c) (8 * (t.val / 8)) 7
    (fun h i => step_first m c _ h (by omega) _ i)
    (fun n h acc i hlo hhi => step_later m c n h (by omega) acc i)
    (t.val % 8) (by omega) _ i

/-- At a last step the output block is the updated accumulator with the bias row added to every row. -/
theorem out_eq (c : Dev nD) (t : Fin cfg0.N) (h7 : t.val % 8 = 7) :
    (outsAt0 m c t.val t.isLt).1 = k0_pay3 ((outsAt0 m c t.val t.isLt).2) (iblk m c 2 t) := by
  have h0 : ¬t.val % 8 = 0 := by omega
  rw [outsAt0_C m c t h0 h7]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).trans
    (congrArg (fun a => k0_pay3 a (iblk m c 2 t)) (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).symm)

/-- THE OUTPUT BLOCK at a last step, at entry (p, q): the eight block products of the reduction, from 0, plus
    entry q of the bias block. -/
theorem out_after (c : Dev nD) (t : Fin cfg0.N) (h7 : t.val % 8 = 7) (p : Fin 256) (q : Fin 5504) :
    (outsAt0 m c t.val t.isLt).1 (ix2 p q)
      = (0 + ∑ s ∈ Finset.range 8, addend m c (8 * (t.val / 8) + s) (ix2 p q)) + bblk m c t (ix2 (0 : Fin 1) q) := by
  refine (congrFun (out_eq m c t h7) (ix2 p q)).trans ?_
  refine (PayloadAt.bias_apply ((outsAt0 m c t.val t.isLt).2) (bblk m c t) p q).trans ?_
  rw [scratch_after m c t (ix2 p q), h7]

end Cert.KernelIdeal.Accumulator

end
-- ==== Proof.BlockReads.lean ====
/-
  The blocks a grid step reads, as entries of the whole arrays, and the whole arrays as the arguments.

  The grid is 32 × 2 × 8 with the last axis fastest, so point t has coordinates (t div 16, (t div 8) mod 2, t mod 8):
  a block of 256 rows, a half of the 11008 output features, and a block of 512 input features. Entry (p, κ) of the
  activation block of point t is entry (256·(t div 16) + p, 512·(t mod 8) + κ) of the staged activations; entry (q, κ)
  of the weight block is entry (5504·((t div 8) mod 2) + q, 512·(t mod 8) + κ) of the staged weights; entry (0, q) of
  the bias block is entry (0, 5504·((t div 8) mod 2) + q) of the staged bias row.
  The staged arrays are what the host operations before the kernel leave: the activations narrowed to bf16, the signs of
  the weights narrowed to bf16, the bias reshaped to one row. On the extended reals narrowing changes nothing, so they
  are the activations, the signs of the weights, and the bias.
-/
import proofs.«141357_j87247965651268_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.BlockReads

open Cert.KernelIdeal Cert.KernelIdeal.Gen Idealize.ShloMosaic Idealize.ShloMosaic.TcCoe
open Idealize.ShloMosaic.ValueIdx Idealize.SL.Sem

variable (m : (ℓ : Loc nD τ sig) → Buf (Elt Ideal) ℓ)

/-- The staged activations, weights and bias row, as the kernel finds them. -/
abbrev acts (c : Dev nD) : FVec Ideal S8192x4096 .bf16 := V m c main_v0
abbrev wts (c : Dev nD) : FVec Ideal S11008x4096 .bf16 := V m c main_v2
abbrev brow (c : Dev nD) : FVec Ideal S1x11008 .f32 := V m c main_v3

/-- The four windows' block indices at point t, decided over the 512 points. -/
theorem index_facts : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

/-- The activation block of point t at (p, κ). -/
theorem xblk_apply (c : Dev nD) (t : Fin cfg0.N) (p : Fin 256) (κ : Fin 512) (r : Fin 8192) (k : Fin 4096)
    (hr : r.val = 256 * (t.val / 16) + p.val) (hk : k.val = 512 * (t.val % 8) + κ.val) :
    (iblk m c 0 t : FVec Ideal S256x512 .bf16) (ix2 p κ) = acts m c (ix2 r k) := by
  obtain ⟨e0, e1, -⟩ := index_facts t
  unfold iblk
  rw [View.read_apply]
  show V m c main_v0 _ = V m c main_v0 _
  refine congrArg (V m c main_v0) (funext fun a => Fin.ext ?_)
  match a with
  | ⟨0, _⟩ => show win0_0.index t (0 : Fin 2) * 256 + 1 * p.val = r.val; omega
  | ⟨1, _⟩ => show win0_0.index t (1 : Fin 2) * 512 + 1 * κ.val = k.val; omega

/-- The weight block of point t at (q, κ). -/
theorem wblk_apply (c : Dev nD) (t : Fin cfg0.N) (q : Fin 5504) (κ : Fin 512) (o : Fin 11008) (k : Fin 4096)
    (ho : o.val = 5504 * (t.val / 8 % 2) + q.val) (hk : k.val = 512 * (t.val % 8) + κ.val) :
    (iblk m c 1 t : FVec Ideal S5504x512 .bf16) (ix2 q κ) = wts m c (ix2 o k) := by
  obtain ⟨-, -, e0, e1, -⟩ := index_facts t
  unfold iblk
  rw [View.read_apply]
  show V m c main_v2 _ = V m c main_v2 _
  refine congrArg (V m c main_v2) (funext fun a => Fin.ext ?_)
  match a with
  | ⟨0, _⟩ => show win0_1.index t (0 : Fin 2) * 5504 + 1 * q.val = o.val; omega
  | ⟨1, _⟩ => show win0_1.index t (1 : Fin 2) * 512 + 1 * κ.val = k.val; omega

/-- The bias block of point t at (0, q). -/
theorem bblk_apply (c : Dev nD) (t : Fin cfg0.N) (q : Fin 5504) (o : Fin 11008)
    (ho : o.val = 5504 * (t.val / 8 % 2) + q.val) :
    (iblk m c 2 t : FVec Ideal S1x5504 .f32) (ix2 (0 : Fin 1) q) = brow m c (ix2 (0 : Fin 1) o) := by
  obtain ⟨-, -, -, -, e0, e1, -⟩ := index_facts t
  unfold iblk
  rw [View.read_apply]
  show V m c main_v3 _ = V m c main_v3 _
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 5504 + 1 * q.val = o.val; omega

/-- The staged activations are the activations. -/
theorem acts_apply (c : Dev nD) (i : S8192x4096.Idx) :
    acts m c i = m ((c : Thread nD τ).loc main_arg0) i := by
  have e : (V m c main_v0 : S8192x4096.Idx → EReal)
      = truncf (F := Ideal) .bf16 (m ((c : Thread nD τ).loc main_arg0)) bitsLt_bf16_f32 := by
    dsimp only [V, hostOps0]; after_results
  exact congrFun e i

/-- The staged weights are the signs of the weights. -/
theorem wts_apply (c : Dev nD) (i : S11008x4096.Idx) :
    wts m c i = Ideal.hostUnary .sign (m ((c : Thread nD τ).loc main_arg1) i) := by
  have e : (V m c main_v2 : S11008x4096.Idx → EReal)
      = truncf (F := Ideal) .bf16 (Host.sign (F := Ideal) (m ((c : Thread nD τ).loc main_arg1))) bitsLt_bf16_f32 := by
    dsimp only [V, hostOps0]; after_results
  exact congrFun e i

/-- A vector of 11008 entries reshaped to one row, read at (0, o), is the vector at o. -/
theorem row_of_vector_apply (b : FVec Ideal S11008 .f32) (o : Fin 11008) :
    shapeCast S1x11008 b shapeCasts_S11008_S1x11008 (ix2 (0 : Fin 1) o) = b (ix1 o) :=
  shapeCast_apply b shapeCasts_S11008_S1x11008 (ix2 (0 : Fin 1) o) (ix1 o) (by
    rw [Shape.rowMajor_val_two, Shape.rowMajor_val_one]; show o.val = 0 * 11008 + o.val; omega)

/-- The staged bias row at (0, o) is the bias at o. -/
theorem brow_apply (c : Dev nD) (o : Fin 11008) :
    brow m c (ix2 (0 : Fin 1) o) = m ((c : Thread nD τ).loc main_arg2) (ix1 o) := by
  have e : (V m c main_v3 : S1x11008.Idx → EReal)
      = shapeCast S1x11008 (m ((c : Thread nD τ).loc main_arg2)) shapeCasts_S11008_S1x11008 := by
    dsimp only [V, hostOps0]; after_results; rfl
  exact (congrFun e (ix2 (0 : Fin 1) o)).trans (row_of_vector_apply (m ((c : Thread nD τ).loc main_arg2)) o)

end Cert.KernelIdeal.BlockReads

end
-- ==== Proof.SumBlocks.lean ====
/-
  A sum over 4096 consecutive positions, taken in 8 consecutive blocks of 512.

  The kernel contracts the 4096 input features 512 at a time, one block per step of the grid's last axis, while the
  reference contracts them in one product. Both are the same finite sum in a commutative additive monoid: position
  512·s + j of the long sum is position j of block s. No finiteness of the terms is needed, so the law holds on the
  extended reals as it stands.
-/
import Mathlib.Algebra.BigOperators.Fin
import Mathlib.Algebra.BigOperators.Intervals

open scoped BigOperators

namespace Cert.SumBlocks

/-- A sum over the first n·K naturals is the sum over n blocks of K consecutive naturals. -/
theorem sum_range_blocks {β : Type*} [AddCommMonoid β] (K : ℕ) (f : ℕ → β) :
    ∀ n : ℕ, ∑ i ∈ Finset.range (n * K), f i = ∑ s ∈ Finset.range n, ∑ j ∈ Finset.range K, f (K * s + j)
  | 0 => by simp
  | n + 1 => by
    rw [Nat.succ_mul, Finset.sum_range_add, sum_range_blocks K f n, Finset.sum_range_succ, Nat.mul_comm n K]

/-- The sum over `Fin 4096` of `g`, as 8 blocks of 512: block `s` holds the positions `512·s + j`. -/
theorem sum_fin4096_blocks {β : Type*} [AddCommMonoid β] (g : Fin 4096 → β) :
    ∑ κ : Fin 4096, g κ
      = ∑ s ∈ Finset.range 8, ∑ j : Fin 512,
          (if h : 512 * s + j.val < 4096 then g ⟨512 * s + j.val, h⟩ else 0) := by
  have e1 : ∑ κ : Fin 4096, g κ = ∑ i ∈ Finset.range (8 * 512), (if h : i < 4096 then g ⟨i, h⟩ else 0) := by
    rw [show (8 * 512 : ℕ) = 4096 from rfl, Finset.sum_range]
    exact Finset.sum_congr rfl fun κ _ => by rw [dif_pos κ.isLt]
  rw [e1, sum_range_blocks 512 (fun i => if h : i < 4096 then g ⟨i, h⟩ else 0) 8]
  exact Finset.sum_congr rfl fun s _ => Finset.sum_range _

end Cert.SumBlocks
-- ==== Proof.KernelResult.lean ====
/-
  The kernel's result array is the dense layer of its arguments.

  The output block of grid point t is written back only at the last step of its reduction (t mod 8 = 7). There, at
  entry (p, q), it holds 0 plus the eight block products of the reduction plus the bias block's entry q. The eight
  block products cover the 4096 input features 512 at a time, so their sum is the product over all features
  (a sum taken in blocks: no finiteness is needed); the block's rows are rows 256·(t div 16) + p of the activations,
  its columns are output features 5504·((t div 8) mod 2) + q. So the block written back is the block of the dense
  layer's result at the same place, and since the blocks written back tile the 8192 × 11008 array, the array after the
  run is the dense layer's result.
-/
import proofs.«141357_j87247965651268_1_alg».proof.Proof.Gen.KernelIdeal.Value
import proofs.«141357_j87247965651268_1_alg».proof.Proof.Accumulator
import proofs.«141357_j87247965651268_1_alg».proof.Proof.BlockReads
import proofs.«141357_j87247965651268_1_alg».proof.Proof.SumBlocks
import proofs.«141357_j87247965651268_1_alg».proof.Proof.Dense
import Idealize.ShloMosaic.Lib.Pipeline.Value

noncomputable section

open scoped BigOperators

namespace Cert.KernelIdeal.Result

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The three argument arrays as launched: activations, weights, bias. -/
abbrev argX (c : Dev nD) : FVec Ideal ⟨2, ![8192, 4096]⟩ .f32 := m ((c : Thread nD τ).loc main_arg0)
abbrev argW (c : Dev nD) : FVec Ideal ⟨2, ![11008, 4096]⟩ .f32 := m ((c : Thread nD τ).loc main_arg1)
abbrev argB (c : Dev nD) : FVec Ideal ⟨1, ![11008]⟩ .f32 := m ((c : Thread nD τ).loc main_arg2)

/-- The dense layer of the three argument arrays, as contents of the result array. -/
abbrev result (c : Dev nD) : Buf (Elt Ideal) ((c : Thread nD τ).loc main_v4) :=
  Cert.Dense.dense (argX m c) (argW m c) (argB m c)

/-- The eight block products of a reduction, at (p, q), sum to the product over all 4096 input features of row
    256·(t div 16) + p of the staged activations with row 5504·((t div 8) mod 2) + q of the staged weights. -/
theorem reduction_sum (c : Dev nD) (t : Fin cfg0.N) (h7 : t.val % 8 = 7) (p : Fin 256) (q : Fin 5504)
    (r : Fin 8192) (o : Fin 11008) (hr : r.val = 256 * (t.val / 16) + p.val) (ho : o.val = 5504 * (t.val / 8 % 2) + q.val) :
    ∑ s ∈ Finset.range 8, Accumulator.addend m c (8 * (t.val / 8) + s) (ix2 p q)
      = ∑ κ : Fin 4096, BlockReads.acts m c (ix2 r κ) * BlockReads.wts m c (ix2 o κ) := by
  have hN : cfg0.N = 512 := N_0
  have ht : t.val < 512 := lt_of_lt_of_eq t.isLt hN
  rw [Cert.SumBlocks.sum_fin4096_blocks]
  refine Finset.sum_congr rfl fun s hs => ?_
  have hs8 : s < 8 := Finset.mem_range.mp hs
  have hn : 8 * (t.val / 8) + s < cfg0.N := lt_of_lt_of_eq (by omega : 8 * (t.val / 8) + s < 512) hN.symm
  rw [Accumulator.addend_apply m c _ hn p q]
  refine Finset.sum_congr rfl fun j _ => ?_
  have hj : j.val < 512 := j.isLt
  have hlt : 512 * s + j.val < 4096 := by omega
  rw [dif_pos hlt]
  exact congrArg₂ (· * ·)
    (BlockReads.xblk_apply m c ⟨8 * (t.val / 8) + s, hn⟩ p j r ⟨512 * s + j.val, hlt⟩
      (by show r.val = 256 * ((8 * (t.val / 8) + s) / 16) + p.val; omega)
      (by show 512 * s + j.val = 512 * ((8 * (t.val / 8) + s) % 8) + j.val; omega))
    (BlockReads.wblk_apply m c ⟨8 * (t.val / 8) + s, hn⟩ q j o ⟨512 * s + j.val, hlt⟩
      (by show o.val = 5504 * ((8 * (t.val / 8) + s) / 8 % 2) + q.val; omega)
      (by show 512 * s + j.val = 512 * ((8 * (t.val / 8) + s) % 8) + j.val; omega))

/-- WHAT A LAST STEP WRITES BACK is the block of the dense layer's result at the output window's place. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : cfg0.N = 512 := N_0
  have ht : t.val < 512 := lt_of_lt_of_eq t.isLt hN
  obtain ⟨-, -, -, -, -, -, e0, e1⟩ := BlockReads.index_facts t
  rw [flushed3]
  funext y
  obtain ⟨p, q, rfl⟩ : ∃ (p : Fin 256) (q : Fin 5504), y = ix2 p q := ⟨y 0, y 1, eq_ix2 y⟩
  have hp : p.val < 256 := p.isLt
  have hq : q.val < 5504 := q.isLt
  have hrlt : 256 * (t.val / 16) + p.val < 8192 := by omega
  have holt : 5504 * (t.val / 8 % 2) + q.val < 11008 := by omega
  have hemb : ((cfg0.win 3).blk t).view.emb (ix2 p q)
      = ix2 (⟨256 * (t.val / 16) + p.val, hrlt⟩ : Fin 8192) (⟨5504 * (t.val / 8 % 2) + q.val, holt⟩ : Fin 11008) :=
    funext fun a => Fin.ext (by
      match a with
      | ⟨0, _⟩ => show win0_3.index t (0 : Fin 2) * 256 + 1 * p.val = 256 * (t.val / 16) + p.val; omega
      | ⟨1, _⟩ => show win0_3.index t (1 : Fin 2) * 5504 + 1 * q.val = 5504 * (t.val / 8 % 2) + q.val; omega)
  show (outsAt0 m c t.val t.isLt).1 (ix2 p q) = result m c (((cfg0.win 3).blk t).view.emb (ix2 p q))
  rw [hemb]
  refine (Accumulator.out_after m c t h7 p q).trans ?_
  show _ = (∑ κ : Fin 4096, argX m c (ix2 (⟨256 * (t.val / 16) + p.val, hrlt⟩ : Fin 8192) κ)
      * Ideal.hostUnary .sign (argW m c (ix2 (⟨5504 * (t.val / 8 % 2) + q.val, holt⟩ : Fin 11008) κ)))
    + argB m c (ix1 (⟨5504 * (t.val / 8 % 2) + q.val, holt⟩ : Fin 11008))
  refine congrArg₂ (· + ·) ?_ ?_
  · rw [zero_add]
    refine (reduction_sum m c t h7 p q ⟨_, hrlt⟩ ⟨_, holt⟩ rfl rfl).trans (Finset.sum_congr rfl fun κ _ => ?_)
    exact congrArg₂ (· * ·) (BlockReads.acts_apply m c _) (BlockReads.wts_apply m c _)
  · exact (BlockReads.bblk_apply m c t q ⟨_, holt⟩ rfl).trans (BlockReads.brow_apply m c _)

/-- An entry of the result array lies in point t's output block iff each coordinate lies in the block's range. -/
theorem mem_blk (t : Fin cfg0.N) (i : S8192x11008.Idx) :
    i ∈ ((cfg0.win 3).blk t).view.set ↔ ∀ a : Fin 2, win0_3.index t a * S256x5504.size a ≤ (i a).val
      ∧ (i a).val < win0_3.index t a * S256x5504.size a + S256x5504.size a := by
  show i ∈ ((View.whole main_v4).slice (win0_3.rect t)).set ↔ _
  rw [View.set_slice_whole, Rect.mem_set_unit]
  exact Iff.rfl

/-- Every entry of the result array is in the block some last step writes back: row block (i₀ div 256), half
    (i₁ div 5504), step 7. -/
theorem cover (i : S8192x11008.Idx) :
    ∃ t : Fin cfg0.N, (cfg0.win 3).flush t = true ∧ i ∈ ((cfg0.win 3).blk t).view.set := by
  have h0 : (i 0).val < 8192 := (i 0).isLt
  have h1 : (i 1).val < 11008 := (i 1).isLt
  have hN : cfg0.N = 512 := N_0
  obtain ⟨t, htv⟩ : ∃ t : Fin cfg0.N, t.val = 16 * ((i 0).val / 256) + 8 * ((i 1).val / 5504) + 7 :=
    ⟨⟨16 * ((i 0).val / 256) + 8 * ((i 1).val / 5504) + 7,
      lt_of_lt_of_eq (by omega : 16 * ((i 0).val / 256) + 8 * ((i 1).val / 5504) + 7 < 512) hN.symm⟩, rfl⟩
  obtain ⟨-, -, -, -, -, -, e0, e1⟩ := BlockReads.index_facts t
  refine ⟨t, (flush0_3 t).mpr (by omega), ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 5504 ≤ (i 1).val ∧ (i 1).val < win0_3.index t (1 : Fin 2) * 5504 + 5504
    omega

/-- THE RESULT ARRAY after the run is the dense layer of the arguments. -/
theorem final (c : Dev nD) : (dats m 0 c).arrAt 3 cfg0.N = result m c :=
  (dats m 0 c).arrAt_eq_of_cover 3 (result m c) (flushed_eq m c) cover

/-- The kernel's run: it terminates with the result array at the dense layer of the arguments, which it leaves
    unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Result

end
-- ==== Proof.lean ====
/-
  A dense layer with ternarized weights: x · sign(w)ᵀ + b for x [8192, 4096], w [11008, 4096], b [11008].

  The kernel narrows x and sign(w) to bf16 on the host and runs one tiled matrix product on a 32 × 2 × 8 grid: for
  each 256-row block of x and each half of the 11008 output features it sums eight 256×512 by 5504×512 block products
  (the second axes contracted) into a zero-initialised scratch accumulator, and at the eighth adds the bias row and
  writes the 256×5504 block out. The reference is sign, transpose, one product over all 4096 features, plus the bias.

  On the extended reals narrowing is the identity, and a sum of 4096 products taken as eight sums of 512 is the same
  sum (addition there is commutative and associative; no term needs to be finite), so both programs end with
      (r, c) ↦ Σ_{κ < 4096} x (r, κ) · sign (w (c, κ)) + b (c)
  in their result arrays. The kernel's side is read off the frame run: what each grid step leaves in the accumulator
  (a fold, unrolled at an entry), what the last step of each reduction writes back, and the tiling of the result array
  by those blocks. The reference's side is its run read one operation at a time. The idealization rewrote nothing,
  so that conjunct is trivial.
-/
import proofs.«141357_j87247965651268_1_alg».proof.Defs
import proofs.«141357_j87247965651268_1_alg».proof.Proof.Gen.Kernel
import proofs.«141357_j87247965651268_1_alg».proof.Proof.Gen.Kernel.Skeleton
import proofs.«141357_j87247965651268_1_alg».proof.Proof.Gen.Kernel.Launch
import proofs.«141357_j87247965651268_1_alg».proof.Proof.Gen.Kernel.Points
import proofs.«141357_j87247965651268_1_alg».proof.Proof.Gen.Kernel.Frame
import proofs.«141357_j87247965651268_1_alg».proof.Proof.Gen.KernelIdeal
import proofs.«141357_j87247965651268_1_alg».proof.Proof.Gen.KernelIdeal.Skeleton
import proofs.«141357_j87247965651268_1_alg».proof.Proof.Gen.KernelIdeal.Launch
import proofs.«141357_j87247965651268_1_alg».proof.Proof.Gen.KernelIdeal.Points
import proofs.«141357_j87247965651268_1_alg».proof.Proof.Gen.KernelIdeal.Frame
import proofs.«141357_j87247965651268_1_alg».proof.Proof.Gen.ReferenceIdeal
import proofs.«141357_j87247965651268_1_alg».proof.Proof.Gen.Pre_finite_inputs
import proofs.«141357_j87247965651268_1_alg».proof.Proof.Gen.KernelIdeal.Value
import proofs.«141357_j87247965651268_1_alg».proof.Proof.Gen.ReferenceIdeal.Run
import proofs.«141357_j87247965651268_1_alg».proof.Proof.Gen.ReferenceIdeal.Read
import proofs.«141357_j87247965651268_1_alg».proof.Proof.Dense
import proofs.«141357_j87247965651268_1_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, both programs end with the dense layer of the arguments in their result arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Dense.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
